-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S26x100000x1 : S_.BroadcastsInDim S26x100000x1 (![] : Fin 0 → Fin S26x100000x1.rank)
  reducesTo_S26x100000x1_S_d0_1_2 : S26x100000x1.ReducesTo [0, 1, 2] S_
  h_S_ : 0 < S_.numel
  bcast_S_S26x100000x16 : S_.BroadcastsInDim S26x100000x16 (![] : Fin 0 → Fin S26x100000x16.rank)
  reducesTo_S26x100000x16_S_d0_1_2 : S26x100000x16.ReducesTo [0, 1, 2] S_
  bcast_S_S416x256 : S_.BroadcastsInDim S416x256 (![] : Fin 0 → Fin S416x256.rank)
  reducesTo_S416x256_S_d0_1 : S416x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : IVec S16384x26 32) (main_arg1 : FVec F S26x100000x1 .f32) (main_arg2 : FVec F S26x100000x16 .f32) (main_arg3 : FVec F S416x256 .f32) (main_arg4 : FVec F S256 .f32) (main_arg5 : FVec F S256 .f32) (main_arg6 : FVec F S256 .f32) (main_arg7 : FVec F S256 .f32) (main_arg8 : FVec F S256 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S26x100000x1 .f32 := Host.absf main_arg1
  let main_cst : FVec F S_ .f32 := constant S_ .f32 0x7F800000#32
  let main_v1 : FVec F S26x100000x1 .f32 := broadcastInDim S26x100000x1 ![] bcast_S_S26x100000x1 main_cst
  let main_v2 : IVec S26x100000x1 1 := cmpf .olt main_v0 main_v1
  let main_c : IVec S_ 1 := constantI S_ 1 1#1
  let main_v3 : IVec S_ 1 := (fun x v => Host.reduce IntOp.andi x v reducesTo_S26x100000x1_S_d0_1_2 h_S_) main_v2 main_c
  let main_v4 : FVec F S26x100000x16 .f32 := Host.absf main_arg2
  let main_cst_0 : FVec F S_ .f32 := constant S_ .f32 0x7F800000#32
  let main_v5 : FVec F S26x100000x16 .f32 := broadcastInDim S26x100000x16 ![] bcast_S_S26x100000x16 main_cst_0
  let main_v6 : IVec S26x100000x16 1 := cmpf .olt main_v4 main_v5
  let main_c_1 : IVec S_ 1 := constantI S_ 1 1#1
  let main_v7 : IVec S_ 1 := (fun x v => Host.reduce IntOp.andi x v reducesTo_S26x100000x16_S_d0_1_2 h_S_) main_v6 main_c_1
  let main_v8 : IVec S_ 1 := andi main_v3 main_v7
  let main_v9 : FVec F S416x256 .f32 := Host.absf main_arg3
  let main_cst_2 : FVec F S_ .f32 := constant S_ .f32 0x7F800000#32
  let main_v10 : FVec F S416x256 .f32 := broadcastInDim S416x256 ![] bcast_S_S416x256 main_cst_2
  let main_v11 : IVec S416x256 1 := cmpf .olt main_v9 main_v10
  let main_c_3 : IVec S_ 1 := constantI S_ 1 1#1
  let main_v12 : IVec S_ 1 := (fun x v => Host.reduce IntOp.andi x v reducesTo_S416x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384 : Shape := ⟨1, ![16384]⟩
abbrev S16384x1 : Shape := ⟨2, ![16384, 1]⟩
abbrev S16384x16 : Shape := ⟨2, ![16384, 16]⟩
abbrev S16384x416 : Shape := ⟨2, ![16384, 416]⟩
abbrev S1x256 : Shape := ⟨2, ![1, 256]⟩
abbrev S1x128 : Shape := ⟨2, ![1, 128]⟩
abbrev S1x1 : Shape := ⟨2, ![1, 1]⟩
abbrev S2048x416 : Shape := ⟨2, ![2048, 416]⟩
abbrev S2048x1 : Shape := ⟨2, ![2048, 1]⟩
abbrev S2048x256 : Shape := ⟨2, ![2048, 256]⟩
abbrev S2048x128 : Shape := ⟨2, ![2048, 128]⟩

abbrev nBuf : Space → Nat
  | .hbm => 88
  | .vmem => 20
  | .smem => 0
  | _ => 0

abbrev bufTy : (tb : Table) → Fin (tcTables nBuf tb) → BufTy
  | .hbm, ⟨0, _⟩ => ⟨S16384x26, .i32⟩
  | .hbm, ⟨1, _⟩ => ⟨S26x100000x1, .f32⟩
  | .hbm, ⟨2, _⟩ => ⟨S26x100000x16, .f32⟩
  | .hbm, ⟨3, _⟩ => ⟨S416x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S26, .i32⟩
  | .hbm, ⟨18, _⟩ => ⟨S1x26, .i32⟩
  | .hbm, ⟨19, _⟩ => ⟨S_, .i32⟩
  | .hbm, ⟨20, _⟩ => ⟨S1x26, .i32⟩
  | .hbm, ⟨21, _⟩ => ⟨S1x26, .i1⟩
  | .hbm, ⟨22, _⟩ => ⟨S_, .i32⟩
  | .hbm, ⟨23, _⟩ => ⟨S1x26, .i32⟩
  | .hbm, ⟨24, _⟩ => ⟨S1x26, .i32⟩
  | .hbm, ⟨25, _⟩ => ⟨S1x26, .i32⟩
  | .hbm, ⟨26, _⟩ => ⟨S_, .i32⟩
  | .hbm, ⟨27, _⟩ => ⟨S16384x26, .i32⟩
  | .hbm, ⟨28, _⟩ => ⟨S16384x26, .i1⟩
  | .hbm, ⟨29, _⟩ => ⟨S_, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S16384x26, .i32⟩
  | .hbm, ⟨34, _⟩ => ⟨S16384x26x1, .i32⟩
  | .hbm, ⟨35, _⟩ => ⟨S16384x26x1, .i32⟩
  | .hbm, ⟨36, _⟩ => ⟨S16384x26x2, .i32⟩
  | .hbm, ⟨37, _⟩ => ⟨S16384x26x1, .f32⟩
  | .hbm, ⟨38, _⟩ => ⟨S_, .i32⟩
  | .hbm, ⟨39, _⟩ => ⟨S1x26, .i32⟩
  | .hbm, ⟨40, _⟩ => ⟨S1x26, .i1⟩
  | .hbm, ⟨41, _⟩ => ⟨S_, .i32⟩
  | .hbm, ⟨42, _⟩ => ⟨S1x26, .i32⟩
  | .hbm, ⟨43, _⟩ => ⟨S1x26, .i32⟩
  | .hbm, ⟨44, _⟩ => ⟨S1x26, .i32⟩
  | .hbm, ⟨45, _⟩ => ⟨S_, .i32⟩
  | .hbm, ⟨46, _⟩ => ⟨S16384x26, .i32⟩
  | .hbm, ⟨47, _⟩ => ⟨S16384x26, .i1⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26, .i32⟩
  | .hbm, ⟨52, _⟩ => ⟨S16384x26, .i32⟩
  | .hbm, ⟨53, _⟩ => ⟨S16384x26x1, .i32⟩
  | .hbm, ⟨54, _⟩ => ⟨S16384x26x1, .i32⟩
  | .hbm, ⟨55, _⟩ => ⟨S16384x26x2, .i32⟩
  | .hbm, ⟨56, _⟩ => ⟨S16384x26x16, .f32⟩
  | .hbm, ⟨57, _⟩ => ⟨S16384x26, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x16, .f32⟩
  | .hbm, ⟨63, _⟩ => ⟨S16384x16, .f32⟩
  | .hbm, ⟨64, _⟩ => ⟨S16384x26x16, .f32⟩
  | .hbm, ⟨65, _⟩ => ⟨S_, .f32⟩
  | .hbm, ⟨66, _⟩ => ⟨S16384x16, .f32⟩
  | .hbm, ⟨67, _⟩ => ⟨S16384x16, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x1, .f32⟩
  | .hbm, ⟨75, _⟩ => ⟨S16384x416, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x1, .f32⟩
  | .hbm, ⟨87, _⟩ => ⟨S16384x1, .f32⟩
  | .local _ .vmem, ⟨0, _⟩ => ⟨S2048x416, .f32⟩
  | .local _ .vmem, ⟨1, _⟩ => ⟨S2048x416, .f32⟩
  | .local _ .vmem, ⟨2, _⟩ => ⟨S2048x1, .f32⟩
  | .local _ .vmem, ⟨3, _⟩ => ⟨S2048x1, .f32⟩
  | .local _ .vmem, ⟨4, _⟩ => ⟨S416x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x1, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S416x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  shapeCasts_S256_S1x256 : S256.ShapeCasts S1x256
  shapeCasts_S128_S1x128 : S128.ShapeCasts S1x128
  shapeCasts_S1_S1x1 : S1.ShapeCasts S1x1
  inb_S2048x416_S2048x416_0_0 : ∀ a, (![0, 0] : Fin 2 → Nat) a + S2048x416.size a ≤ S2048x416.size a
  h_S2048x416 : 0 < S2048x416.numel
  shapeCasts_S2048x416_S2048x416 : S2048x416.ShapeCasts S2048x416
  bitsLt_bf16_f32 : FTy.bits .bf16 < FTy.bits .f32
  inb_S416x256_S416x256_0_0 : ∀ a, (![0, 0] : Fin 2 → Nat) a + S416x256.size a ≤ S416x256.size a
  h_S416x256 : 0 < S416x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S2048x416_S416x256_S2048x256_1_0_0_1_n_n_wf : DotDims.WF S2048x416 S416x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x416.size a ≤ S16384x416.size a
  hwx0_0 : ∀ i : grid0.Coords, EltTy.bits .f32 = 32 ∨ (Rect.block (s := S16384x416) S2048x416.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S16384x1.size a
  hwx0_1 : ∀ i : grid0.Coords, EltTy.bits .f32 = 32 ∨ (Rect.block (s := S16384x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S416x256.size a ≤ S416x256.size a
  hwx0_2 : ∀ i : grid0.Coords, EltTy.bits .f32 = 32 ∨ (Rect.block (s := S416x256) S416x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x1.size a ≤ S16384x1.size a
  hwx0_16 : ∀ i : grid0.Coords, EltTy.bits .f32 = 32 ∨ (Rect.block (s := S16384x1) S2048x1.size (cc0_transform_16 i) (hinb0_16 i)).WholeWords (EltTy.packing .f32)

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S2048x416_S416x256_S2048x256_1_0_0_1_n_n : DotDims S2048x416 S416x256 S2048x256 where
  lhsContracting := [1]
  rhsContracting := [0]
  lhsNonContracting := [0]
  rhsNonContracting := [1]
  lhsBatch := []
  rhsBatch := []
  wf := dot_S2048x416_S416x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v45) S2048x416.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S416x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v50) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v53) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v54) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v55) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v56) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v57) S2048x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S16384x26 : Shape := ⟨2, ![16384, 26]⟩
abbrev S26x100000x1 : Shape := ⟨3, ![26, 100000, 1]⟩
abbrev S26x100000x16 : Shape := ⟨3, ![26, 100000, 16]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384 : Shape := ⟨1, ![16384]⟩
abbrev S16384x1 : Shape := ⟨2, ![16384, 1]⟩
abbrev S16384x16 : Shape := ⟨2, ![16384, 16]⟩
abbrev S16384x416 : Shape := ⟨2, ![16384, 416]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S16384x26, .i32⟩
  | 1 => ⟨S26x100000x1, .f32⟩
  | 2 => ⟨S26x100000x16, .f32⟩
  | 3 => ⟨S416x256, .f32⟩
  | 4 => ⟨S256, .f32⟩
  | 5 => ⟨S256, .f32⟩
  | 6 => ⟨S256, .f32⟩
  | 7 => ⟨S256, .f32⟩
  | 8 => ⟨S256, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S128x1, .f32⟩
  | 16 => ⟨S1, .f32⟩
  | 17 => ⟨S26, .i32⟩
  | 18 => ⟨S1x26, .i32⟩
  | 19 => ⟨S_, .i32⟩
  | 20 => ⟨S1x26, .i32⟩
  | 21 => ⟨S1x26, .i1⟩
  | 22 => ⟨S_, .i32⟩
  | 23 => ⟨S1x26, .i32⟩
  | 24 => ⟨S1x26, .i32⟩
  | 25 => ⟨S1x26, .i32⟩
  | 26 => ⟨S_, .i32⟩
  | 27 => ⟨S16384x26, .i32⟩
  | 28 => ⟨S16384x26, .i1⟩
  | 29 => ⟨S_, .i32⟩
  | 30 => ⟨S16384x26, .i32⟩
  | 31 => ⟨S16384x26, .i32⟩
  | 32 => ⟨S16384x26, .i32⟩
  | 33 => ⟨S16384x26, .i32⟩
  | 34 => ⟨S16384x26x1, .i32⟩
  | 35 => ⟨S16384x26x1, .i32⟩
  | 36 => ⟨S16384x26x2, .i32⟩
  | 37 => ⟨S16384x26x1, .f32⟩
  | 38 => ⟨S_, .i32⟩
  | 39 => ⟨S1x26, .i32⟩
  | 40 => ⟨S1x26, .i1⟩
  | 41 => ⟨S_, .i32⟩
  | 42 => ⟨S1x26, .i32⟩
  | 43 => ⟨S1x26, .i32⟩
  | 44 => ⟨S1x26, .i32⟩
  | 45 => ⟨S_, .i32⟩
  | 46 => ⟨S16384x26, .i32⟩
  | 47 => ⟨S16384x26, .i1⟩
  | 48 => ⟨S_, .i32⟩
  | 49 => ⟨S16384x26, .i32⟩
  | 50 => ⟨S16384x26, .i32⟩
  | 51 => ⟨S16384x26, .i32⟩
  | 52 => ⟨S16384x26, .i32⟩
  | 53 => ⟨S16384x26x1, .i32⟩
  | 54 => ⟨S16384x26x1, .i32⟩
  | 55 => ⟨S16384x26x2, .i32⟩
  | 56 => ⟨S16384x26x16, .f32⟩
  | 57 => ⟨S16384x26, .f32⟩
  | 58 => ⟨S_, .f32⟩
  | 59 => ⟨S16384, .f32⟩
  | 60 => ⟨S16384x1, .f32⟩
  | 61 => ⟨S_, .f32⟩
  | 62 => ⟨S16384x16, .f32⟩
  | 63 => ⟨S16384x16, .f32⟩
  | 64 => ⟨S16384x26x16, .f32⟩
  | 65 => ⟨S_, .f32⟩
  | 66 => ⟨S16384x16, .f32⟩
  | 67 => ⟨S16384x16, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S16384x416, .f32⟩
  | 75 => ⟨S16384x256, .f32⟩
  | 76 => ⟨S1x256, .f32⟩
  | 77 => ⟨S16384x256, .f32⟩
  | 78 => ⟨S16384x256, .f32⟩
  | 79 => ⟨S1x256, .f32⟩
  | 80 => ⟨S16384x256, .f32⟩
  | 81 => ⟨S16384x256, .f32⟩
  | 82 => ⟨S_, .f32⟩
  | 83 => ⟨S256, .f32⟩
  | 84 => ⟨S256, .f32⟩
  | 85 => ⟨S256, .f32⟩
  | 86 => ⟨S1x256, .f32⟩
  | 87 => ⟨S16384x256, .f32⟩
  | 88 => ⟨S16384x256, .f32⟩
  | 89 => ⟨S1x256, .f32⟩
  | 90 => ⟨S16384x256, .f32⟩
  | 91 => ⟨S16384x256, .f32⟩
  | 92 => ⟨S1x256, .f32⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S16384x128, .f32⟩
  | 99 => ⟨S1x128, .f32⟩
  | 100 => ⟨S16384x128, .f32⟩
  | 101 => ⟨S16384x128, .f32⟩
  | 102 => ⟨S1x128, .f32⟩
  | 103 => ⟨S16384x128, .f32⟩
  | 104 => ⟨S16384x128, .f32⟩
  | 105 => ⟨S_, .f32⟩
  | 106 => ⟨S128, .f32⟩
  | 107 => ⟨S128, .f32⟩
  | 108 => ⟨S128, .f32⟩
  | 109 => ⟨S1x128, .f32⟩
  | 110 => ⟨S16384x128, .f32⟩
  | 111 => ⟨S16384x128, .f32⟩
  | 112 => ⟨S1x128, .f32⟩
  | 113 => ⟨S16384x128, .f32⟩
  | 114 => ⟨S16384x128, .f32⟩
  | 115 => ⟨S1x128, .f32⟩
  | 116 => ⟨S16384x128, .f32⟩
  | 117 => ⟨S16384x128, .f32⟩
  | 118 => ⟨S_, .f32⟩
  | 119 => ⟨S16384x128, .f32⟩
  | 120 => ⟨S16384x128, .f32⟩
  | 121 => ⟨S16384x1, .f32⟩
  | 122 => ⟨S1x1, .f32⟩
  | 123 => ⟨S16384x1, .f32⟩
  | 124 => ⟨S16384x1, .f32⟩
  | 125 => ⟨S16384x1, .f32⟩
  | 126 => ⟨S16384x1, .f32⟩
  | 127 => ⟨S16384x1, .f32⟩
  | _ => ⟨S16384x26, .i32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384x1, .f32⟩
  | 6 => ⟨S16384x1, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_cst_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call0_cst : Ref sig .tc := ⟨.hbm, 95, rfl⟩
abbrev main_call0_v0 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_12 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_cst : Ref sig .tc := ⟨.hbm, 118, rfl⟩
abbrev main_call1_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_13 : Ref sig .tc := ⟨.hbm, 129, rfl⟩
abbrev main_v93 : Ref sig .tc := ⟨.hbm, 130, rfl⟩
abbrev main_v94 : Ref sig .tc := ⟨.hbm, 131, rfl⟩
abbrev main_cst_14 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  shapeCasts_S16384x26x1_S16384x26 : S16384x26x1.ShapeCasts S16384x26
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x16_S16384x16_d1 : S16384x26x16.ReducesTo [1] S16384x16
  reducesTo_S16384x16_S16384_d1 : S16384x16.ReducesTo [1] S16384
  bcast_S_S16384x1 : S_.BroadcastsInDim S16384x1 (![] : Fin 0 → Fin S16384x1.rank)
  shapeCasts_S16384x26x16_S16384x416 : S16384x26x16.ShapeCasts S16384x416
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S256 : S_.BroadcastsInDim S256 (![] : Fin 0 → Fin S256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S128 : S_.BroadcastsInDim S128 (![] : Fin 0 → Fin S128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S26x100000x1_S16384x26x2_S16384x26x1_2_01_n_n_01_2_111_wf : GatherDims.WF S26x100000x1 S16384x26x2 S16384x26x1 [2] [0, 1] [] [0, 1] [] 2 ![1, 1, 1]
  gather_S26x100000x16_S16384x26x2_S16384x26x16_2_01_n_n_01_2_1116_wf : GatherDims.WF S26x100000x16 S16384x26x2 S16384x26x16 [2] [0, 1] [] [0, 1] [] 2 ![1, 1, 16]
  dot_S16384x416_S416x256_S16384x256_1_0_0_1_n_n_wf : DotDims.WF S16384x416 S416x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def gather_S26x100000x1_S16384x26x2_S16384x26x1_2_01_n_n_01_2_111 : GatherDims S26x100000x1 S16384x26x2 S16384x26x1 where
  offsetDims := [2]
  collapsedSliceDims := [0, 1]
  operandBatchingDims := []
  startIndicesBatchingDims := []
  startIndexMap := [0, 1]
  indexVectorDim := 2
  sliceSizes := ![1, 1, 1]
  wf := gather_S26x100000x1_S16384x26x2_S16384x26x1_2_01_n_n_01_2_111_wf
def gather_S26x100000x16_S16384x26x2_S16384x26x16_2_01_n_n_01_2_1116 : GatherDims S26x100000x16 S16384x26x2 S16384x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S16384x26x2_S16384x26x16_2_01_n_n_01_2_1116_wf
def dot_S16384x416_S416x256_S16384x256_1_0_0_1_n_n : DotDims S16384x416 S416x256 S16384x256 where
  lhsContracting := [1]
  rhsContracting := [0]
  lhsNonContracting := [0]
  rhsNonContracting := [1]
  lhsBatch := []
  rhsBatch := []
  wf := dot_S16384x416_S416x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«116948_j43757126812202_1_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«116948_j43757126812202_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.Net.lean ====
/-
  A click-through-rate network's dense tower, as whole-array functions over the extended reals.

  A hidden layer sends an [M, K] array x to the [M, N] array whose entry (r, c) is
      max ( (((Σ_k x (r, k) · w (k, c)) + b c − μ c) · rsqrt (σ² c + ε)) · γ c + β c , 0 ):
  a product with a [K, N] weight, a bias, a normalisation by running statistics (ε the f32 nearest 1e-5), a relu.
  The output layer sends an [M, K] array h to the [M, 1] column whose entry r is
      logistic ( ((Σ_k h (r, k) · w (k, 0)) + b 0) + f r ),
  f a column added to the logit. Both are row-local: row r of the result depends on row r of the input only.

  Two computations are each of these functions, for any extents:
    * the device's: a block product into the zero accumulator of operands first narrowed to bf16 (a change of float
      format is the identity on the extended reals), the per-column parameters held as [1, N] rows and broadcast
      over the rows, the logistic as one operation;
    * the host's: dot_general, the per-column parameters [N] vectors laid along the columns through [1, N], the
      logistic spelt 1 / (1 + exp (−z)), and the added column given as two columns added one after the other:
      (z + f₁) + f₂ = z + (f₁ + f₂), addition on the extended reals being associative everywhere.
-/
import Idealize.ShloMosaic.PureOps.Ideal.Laws
import Idealize.ShloMosaic.Lib.ValueIdx
import Idealize.ShloMosaic.Lib.ValueLayout
import Idealize.ShloMosaic.Lib.Pipeline.Value
import proofs.«116948_j43757126812202_1_alg».proof.Proof.LibDotSum
import proofs.«116948_j43757126812202_1_alg».proof.Proof.LibDense
import proofs.«116948_j43757126812202_1_alg».proof.Proof.LibConsts

noncomputable section

namespace Cert.Net

open Idealize.ShloMosaic Idealize.ShloMosaic.ValueIdx Cert.Lib

variable {M K N : Nat}

/-- A [1, N] row read as an [N] vector. -/
def rowOf (b : FVec Ideal ⟨2, ![1, N]⟩ .f32) : FVec Ideal ⟨1, ![N]⟩ .f32 := fun j => b (ix2 (0 : Fin 1) (j 0))

theorem rowOf_apply (b : FVec Ideal ⟨2, ![1, N]⟩ .f32) (c : Fin N) : rowOf b (ix1 c) = b (ix2 (0 : Fin 1) c) := rfl

/-- An [N] vector cast to a [1, N] row and read back is the vector. -/
theorem rowOf_shapeCast (v : FVec Ideal ⟨1, ![N]⟩ .f32) (h : (⟨1, ![N]⟩ : Shape).ShapeCasts ⟨2, ![1, N]⟩) :
    rowOf (shapeCast ⟨2, ![1, N]⟩ v h) = v := by
  funext j
  obtain ⟨c, rfl⟩ : ∃ c : Fin N, j = ix1 c := ⟨j 0, eq_ix1 j⟩
  rw [rowOf_apply, shapeCast_a_1a_apply]

/-! ## A hidden layer -/

/-- Entry (r, c): max ((((Σ_k x (r, k) · w (k, c)) + b c − μ c) · rsqrt (σ² c + ε)) · γ c + β c, 0). -/
def hidden (x : FVec Ideal ⟨2, ![M, K]⟩ .f32) (w : FVec Ideal ⟨2, ![K, N]⟩ .f32)
    (b g be mu var : FVec Ideal ⟨1, ![N]⟩ .f32) : FVec Ideal ⟨2, ![M, N]⟩ .f32 :=
  fun i => max (((((∑ k : Fin K, x (ix2 (i 0) k) * w (ix2 k (i 1))) + b (ix1 (i 1))) - mu (ix1 (i 1)))
      * Ideal.rsqrt (var (ix1 (i 1)) + Ideal.ofBits .f32 0x3727C5AC#32)) * g (ix1 (i 1)) + be (ix1 (i 1)))
    (Ideal.ofBits .f32 0x00000000#32)

theorem hidden_apply (x : FVec Ideal ⟨2, ![M, K]⟩ .f32) (w : FVec Ideal ⟨2, ![K, N]⟩ .f32)
    (b g be mu var : FVec Ideal ⟨1, ![N]⟩ .f32) (r : Fin M) (c : Fin N) :
    hidden x w b g be mu var (ix2 r c)
      = max (((((∑ k : Fin K, x (ix2 r k) * w (ix2 k c)) + b (ix1 c)) - mu (ix1 c))
          * Ideal.rsqrt (var (ix1 c) + Ideal.ofBits .f32 0x3727C5AC#32)) * g (ix1 c) + be (ix1 c))
        (Ideal.ofBits .f32 0x00000000#32) := rfl

/-- Row r of a hidden layer's output depends on row r of its input only. -/
theorem hidden_row_congr {M' : Nat} (x : FVec Ideal ⟨2, ![M, K]⟩ .f32) (x' : FVec Ideal ⟨2, ![M', K]⟩ .f32)
    (w : FVec Ideal ⟨2, ![K, N]⟩ .f32) (b g be mu var : FVec Ideal ⟨1, ![N]⟩ .f32) (r : Fin M) (r' : Fin M')
    (h : ∀ k : Fin K, x (ix2 r k) = x' (ix2 r' k)) (c : Fin N) :
    hidden x w b g be mu var (ix2 r c) = hidden x' w b g be mu var (ix2 r' c) := by
  rw [hidden_apply, hidden_apply]
  simp only [h]

/-- The device's form: the block product of the narrowed operands into the zero accumulator, then the bias, the
    normalisation, the scale and the shift, each parameter a [1, N] row broadcast over the rows, then the relu. -/
theorem dev_hidden (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![K, N]⟩ .f32) (b mu var g be : FVec Ideal ⟨2, ![1, N]⟩ .f32)
    (hb : FTy.bf16.bits < FTy.f32.bits) (hb' : FTy.bf16.bits < FTy.f32.bits)
    (hsc : (⟨2, ![1, N]⟩ : Shape).ShapeCasts ⟨2, ![1, N]⟩) (hbc : (⟨2, ![1, N]⟩ : Shape).Broadcasts ⟨2, ![M, N]⟩) :
    maximumf (addf (mulf (mulf (subf (addf
        (matmul d prec (truncf .bf16 x hb) (truncf .bf16 w hb') (constant ⟨2, ![M, N]⟩ .f32 0x00000000#32))
        (broadcastTo ⟨2, ![M, N]⟩ (shapeCast ⟨2, ![1, N]⟩ b hsc) hbc))
        (broadcastTo ⟨2, ![M, N]⟩ (shapeCast ⟨2, ![1, N]⟩ mu hsc) hbc))
        (broadcastTo ⟨2, ![M, N]⟩ (rsqrt (addf (shapeCast ⟨2, ![1, N]⟩ var hsc)
          (broadcast ⟨2, ![1, N]⟩ (Scalar.ofBits .f32 0x3727C5AC#32)))) hbc))
        (broadcastTo ⟨2, ![M, N]⟩ (shapeCast ⟨2, ![1, N]⟩ g hsc) hbc))
        (broadcastTo ⟨2, ![M, N]⟩ (shapeCast ⟨2, ![1, N]⟩ be hsc) hbc))
      (broadcast ⟨2, ![M, N]⟩ (Scalar.ofBits .f32 0x00000000#32))
    = hidden x w (rowOf b) (rowOf g) (rowOf be) (rowOf mu) (rowOf var) := by
  funext i
  obtain ⟨r, c, rfl⟩ : ∃ (r : Fin M) (c : Fin N), i = ix2 r c := ⟨i 0, i 1, eq_ix2 i⟩
  rw [hidden_apply, maximumf_apply, addf_apply, mulf_apply, mulf_apply, subf_apply, addf_apply,
    matmul_rc_apply d hlc hrc hln hrn hlb hrb]
  simp only [shapeCast_self, broadcastTo_1b_ab_apply, rowOf_apply]
  rfl

/-- The host's form: dot_general, each parameter an [N] vector laid along the columns through a [1, N] row, the
    relu's zero a scalar laid over the whole array. -/
theorem host_hidden (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![K, N]⟩ .f32) (b mu var g be : FVec Ideal ⟨1, ![N]⟩ .f32)
    (h₁ : (⟨1, ![N]⟩ : Shape).BroadcastsInDim ⟨2, ![1, N]⟩ ![1])
    (h₂ : (⟨2, ![1, N]⟩ : Shape).BroadcastsInDim ⟨2, ![M, N]⟩ ![0, 1])
    (he : (⟨0, ![]⟩ : Shape).BroadcastsInDim ⟨1, ![N]⟩ ![])
    (hz : (⟨0, ![]⟩ : Shape).BroadcastsInDim ⟨2, ![M, N]⟩ ![]) :
    maximumf (addf (mulf (mulf (subf (addf
        (Host.dotGeneral d prec x w)
        (broadcastInDim ⟨2, ![M, N]⟩ ![0, 1] h₂ (broadcastInDim ⟨2, ![1, N]⟩ ![1] h₁ b)))
        (broadcastInDim ⟨2, ![M, N]⟩ ![0, 1] h₂ (broadcastInDim ⟨2, ![1, N]⟩ ![1] h₁ mu)))
        (broadcastInDim ⟨2, ![M, N]⟩ ![0, 1] h₂ (broadcastInDim ⟨2, ![1, N]⟩ ![1] h₁
          (Host.rsqrt (addf var (broadcastInDim ⟨1, ![N]⟩ ![] he (constant ⟨0, ![]⟩ .f32 0x3727C5AC#32)))))))
        (broadcastInDim ⟨2, ![M, N]⟩ ![0, 1] h₂ (broadcastInDim ⟨2, ![1, N]⟩ ![1] h₁ g)))
        (broadcastInDim ⟨2, ![M, N]⟩ ![0, 1] h₂ (broadcastInDim ⟨2, ![1, N]⟩ ![1] h₁ be)))
      (broadcastInDim ⟨2, ![M, N]⟩ ![] hz (constant ⟨0, ![]⟩ .f32 0x00000000#32))
    = hidden x w b g be mu var := by
  funext i
  obtain ⟨r, c, rfl⟩ : ∃ (r : Fin M) (c : Fin N), i = ix2 r c := ⟨i 0, i 1, eq_ix2 i⟩
  rw [hidden_apply, maximumf_apply, addf_apply, mulf_apply, mulf_apply, subf_apply, addf_apply,
    dotGeneral_rc_apply d hlc hrc hln hrn hlb hrb]
  rw [broadcastInDim_row_apply h₁ h₂ b r c, broadcastInDim_row_apply h₁ h₂ mu r c, broadcastInDim_row_apply h₁ h₂ _ r c,
    broadcastInDim_row_apply h₁ h₂ g r c, broadcastInDim_row_apply h₁ h₂ be r c]
  rfl

/-! ## The output layer -/

/-- Entry r: logistic (((Σ_k h (r, k) · w (k, 0)) + b 0) + f r). -/
def out (h : FVec Ideal ⟨2, ![M, K]⟩ .f32) (w : FVec Ideal ⟨2, ![K, 1]⟩ .f32) (b : FVec Ideal ⟨1, ![1]⟩ .f32)
    (f : FVec Ideal ⟨2, ![M, 1]⟩ .f32) : FVec Ideal ⟨2, ![M, 1]⟩ .f32 :=
  fun i => Ideal.logistic (((∑ k : Fin K, h (ix2 (i 0) k) * w (ix2 k (0 : Fin 1))) + b (ix1 (0 : Fin 1)))
    + f (ix2 (i 0) (0 : Fin 1)))

theorem out_apply (h : FVec Ideal ⟨2, ![M, K]⟩ .f32) (w : FVec Ideal ⟨2, ![K, 1]⟩ .f32) (b : FVec Ideal ⟨1, ![1]⟩ .f32)
    (f : FVec Ideal ⟨2, ![M, 1]⟩ .f32) (r : Fin M) (u : Fin 1) :
    out h w b f (ix2 r u) = Ideal.logistic (((∑ k : Fin K, h (ix2 r k) * w (ix2 k (0 : Fin 1))) + b (ix1 (0 : Fin 1)))
      + f (ix2 r (0 : Fin 1))) := rfl

/-- Row r of the output depends on row r of the last hidden layer and on entry r of the added column only. -/
theorem out_row_congr {M' : Nat} (h : FVec Ideal ⟨2, ![M, K]⟩ .f32) (h' : FVec Ideal ⟨2, ![M', K]⟩ .f32)
    (w : FVec Ideal ⟨2, ![K, 1]⟩ .f32) (b : FVec Ideal ⟨1, ![1]⟩ .f32)
    (f : FVec Ideal ⟨2, ![M, 1]⟩ .f32) (f' : FVec Ideal ⟨2, ![M', 1]⟩ .f32) (r : Fin M) (r' : Fin M')
    (hh : ∀ k : Fin K, h (ix2 r k) = h' (ix2 r' k)) (hf : f (ix2 r (0 : Fin 1)) = f' (ix2 r' (0 : Fin 1)))
    (u u' : Fin 1) :
    out h w b f (ix2 r u) = out h' w b f' (ix2 r' u') := by
  rw [out_apply, out_apply, hf]
  simp only [hh]

/-- The device's form: the block product into the zero accumulator, the bias a [1, 1] cell broadcast down the column,
    the added column, the logistic as one operation. -/
theorem dev_out (d : DotDims ⟨2, ![M, K]⟩ ⟨2, ![K, 1]⟩ ⟨2, ![M, 1]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (h : FVec Ideal ⟨2, ![M, K]⟩ .f32) (w : FVec Ideal ⟨2, ![K, 1]⟩ .f32) (b : FVec Ideal ⟨2, ![1, 1]⟩ .f32)
    (f : FVec Ideal ⟨2, ![M, 1]⟩ .f32)
    (hb : FTy.bf16.bits < FTy.f32.bits) (hb' : FTy.bf16.bits < FTy.f32.bits)
    (hsc : (⟨2, ![1, 1]⟩ : Shape).ShapeCasts ⟨2, ![1, 1]⟩) (hbc : (⟨2, ![1, 1]⟩ : Shape).Broadcasts ⟨2, ![M, 1]⟩)
    (hsf : (⟨2, ![M, 1]⟩ : Shape).ShapeCasts ⟨2, ![M, 1]⟩) :
    logistic (addf (addf
        (matmul d prec (truncf .bf16 h hb) (truncf .bf16 w hb') (constant ⟨2, ![M, 1]⟩ .f32 0x00000000#32))
        (broadcastTo ⟨2, ![M, 1]⟩ (shapeCast ⟨2, ![1, 1]⟩ b hsc) hbc))
        (shapeCast ⟨2, ![M, 1]⟩ f hsf))
    = out h w (rowOf b) f := by
  funext i
  obtain ⟨r, u, rfl⟩ : ∃ (r : Fin M) (u : Fin 1), i = ix2 r u := ⟨i 0, i 1, eq_ix2 i⟩
  obtain rfl : u = 0 := Subsingleton.elim _ _
  rw [out_apply]
  show Ideal.logistic ((matmul d prec (truncf .bf16 h hb) (truncf .bf16 w hb') (constant ⟨2, ![M, 1]⟩ .f32 0x00000000#32)
      (ix2 r (0 : Fin 1)) + broadcastTo ⟨2, ![M, 1]⟩ (shapeCast ⟨2, ![1, 1]⟩ b hsc) hbc (ix2 r (0 : Fin 1)))
      + shapeCast ⟨2, ![M, 1]⟩ f hsf (ix2 r (0 : Fin 1))) = _
  rw [matmul_rc_apply d hlc hrc hln hrn hlb hrb]
  simp only [shapeCast_self, broadcastTo_1b_ab_apply, rowOf_apply]
  rfl

/-- The host's form: dot_general, the bias a [1] vector laid through a [1, 1] cell, the two added columns one after
    the other, and the logistic spelt 1 / (1 + exp (−z)). -/
theorem host_out (d : DotDims ⟨2, ![M, K]⟩ ⟨2, ![K, 1]⟩ ⟨2, ![M, 1]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (h : FVec Ideal ⟨2, ![M, K]⟩ .f32) (w : FVec Ideal ⟨2, ![K, 1]⟩ .f32) (b : FVec Ideal ⟨1, ![1]⟩ .f32)
    (f₁ f₂ : FVec Ideal ⟨2, ![M, 1]⟩ .f32)
    (h₁ : (⟨1, ![1]⟩ : Shape).BroadcastsInDim ⟨2, ![1, 1]⟩ ![1])
    (h₂ : (⟨2, ![1, 1]⟩ : Shape).BroadcastsInDim ⟨2, ![M, 1]⟩ ![0, 1])
    (hz hz' : (⟨0, ![]⟩ : Shape).BroadcastsInDim ⟨2, ![M, 1]⟩ ![]) :
    Host.divf (broadcastInDim ⟨2, ![M, 1]⟩ ![] hz (constant ⟨0, ![]⟩ .f32 0x3F800000#32))
      (addf (broadcastInDim ⟨2, ![M, 1]⟩ ![] hz' (constant ⟨0, ![]⟩ .f32 0x3F800000#32))
        (Host.exp (Host.negf (addf (addf (addf (Host.dotGeneral d prec h w)
          (broadcastInDim ⟨2, ![M, 1]⟩ ![0, 1] h₂ (broadcastInDim ⟨2, ![1, 1]⟩ ![1] h₁ b))) f₁) f₂))))
    = out h w b (addf f₁ f₂) := by
  funext i
  obtain ⟨r, u, rfl⟩ : ∃ (r : Fin M) (u : Fin 1), i = ix2 r u := ⟨i 0, i 1, eq_ix2 i⟩
  obtain rfl : u = 0 := Subsingleton.elim _ _
  rw [out_apply, addf_apply, ← add_assoc]
  show Ideal.div (Ideal.ofBits .f32 0x3F800000#32) (Ideal.ofBits .f32 0x3F800000#32
      + Ideal.exp (-(((Host.dotGeneral d prec h w (ix2 r (0 : Fin 1))
        + broadcastInDim ⟨2, ![M, 1]⟩ ![0, 1] h₂ (broadcastInDim ⟨2, ![1, 1]⟩ ![1] h₁ b) (ix2 r (0 : Fin 1)))
        + f₁ (ix2 r (0 : Fin 1))) + f₂ (ix2 r (0 : Fin 1))))) = _
  rw [dotGeneral_rc_apply d hlc hrc hln hrn hlb hrb, broadcastInDim_row_apply, Cert.LibConsts.ofBits_one]
  rfl

/-! ## The whole tower is row-local -/

/-- Two hidden layers and the output layer: row r of the result depends on row r of the input and on entry r of the
    added column only. -/
theorem tower_row_congr {M' K₁ K₂ : Nat} (x : FVec Ideal ⟨2, ![M, K]⟩ .f32) (x' : FVec Ideal ⟨2, ![M', K]⟩ .f32)
    (w1 : FVec Ideal ⟨2, ![K, K₁]⟩ .f32) (b1 g1 be1 m1 v1 : FVec Ideal ⟨1, ![K₁]⟩ .f32)
    (w2 : FVec Ideal ⟨2, ![K₁, K₂]⟩ .f32) (b2 g2 be2 m2 v2 : FVec Ideal ⟨1, ![K₂]⟩ .f32)
    (w3 : FVec Ideal ⟨2, ![K₂, 1]⟩ .f32) (b3 : FVec Ideal ⟨1, ![1]⟩ .f32)
    (f : FVec Ideal ⟨2, ![M, 1]⟩ .f32) (f' : FVec Ideal ⟨2, ![M', 1]⟩ .f32) (r : Fin M) (r' : Fin M')
    (hx : ∀ k : Fin K, x (ix2 r k) = x' (ix2 r' k)) (hf : f (ix2 r (0 : Fin 1)) = f' (ix2 r' (0 : Fin 1)))
    (u u' : Fin 1) :
    out (hidden (hidden x w1 b1 g1 be1 m1 v1) w2 b2 g2 be2 m2 v2) w3 b3 f (ix2 r u)
      = out (hidden (hidden x' w1 b1 g1 be1 m1 v1) w2 b2 g2 be2 m2 v2) w3 b3 f' (ix2 r' u') :=
  out_row_congr _ _ w3 b3 f f' r r'
    (fun k => hidden_row_congr _ _ w2 b2 g2 be2 m2 v2 r r'
      (fun k' => hidden_row_congr x x' w1 b1 g1 be1 m1 v1 r r' hx k') k) hf u u'

end Cert.Net

end
-- ==== Proof.KernelValue.lean ====
/-
  What the kernel leaves in its result array, as one function of the arrays its launch finds.

  The launch has eight grid points; point t works on rows 2048·t … 2048·t + 2047. Its body loads that block of the
  flattened embeddings (2048 × 416) and of the added column (2048 × 1) and, whole, the three weights and the eleven
  per-column parameter rows, and stores the 2048 × 1 block
      logistic ((relu-normalised layer 2 of relu-normalised layer 1 of the embeddings block) · W3 + b3 + added column).
  Every layer is row-local, so the block point t stores is rows 2048·t … of the whole-array tower applied to the whole
  arrays; the eight blocks tile the 16384 rows, hence the result array is that tower.
-/
import proofs.«116948_j43757126812202_1_alg».proof.Proof.Gen.KernelIdeal.Value
import proofs.«116948_j43757126812202_1_alg».proof.Proof.Net

set_option maxRecDepth 16384

noncomputable section

namespace Cert.KernelIdeal.Tower

open Cert.KernelIdeal Cert.KernelIdeal.Gen Idealize.ShloMosaic Idealize.ShloMosaic.TcCoe Idealize.SL.Sem
open Idealize.ShloMosaic.ValueIdx
open Idealize.ShloMosaic.Pipeline (Dat)
open Cert.Net

variable (m : (ℓ : Loc nD τ sig) → Buf (Elt Ideal) ℓ) (ρ : Dev nD → PrngReg)

theorem origin : (![0, 0] : Fin 2 → Nat) = fun _ => 0 := funext fun a => by fin_cases a <;> rfl

/-! ## The stored block is the tower of the loaded blocks -/

/-- The body's one stored value: the two hidden layers and the output layer of the loaded embeddings block, the
    per-column parameters read off their [1, N] rows. -/
theorem stored_eq (x0 : Vec Ideal S2048x416 .f32) (f0 : Vec Ideal S2048x1 .f32) (w1 : Vec Ideal S416x256 .f32)
    (b1 g1 be1 m1 v1 : Vec Ideal S1x256 .f32) (w2 : Vec Ideal S256x128 .f32) (b2 g2 be2 m2 v2 : Vec Ideal S1x128 .f32)
    (w3 : Vec Ideal S128x1 .f32) (b3 : Vec Ideal S1x1 .f32) :
    k0_pay1 (k0_pay2 x0 w1 b1 m1 v1 g1 be1 w2) (k0_pay3 b2) m2 v2 g2 be2 w3 b3 f0
      = out (hidden (hidden x0 w1 (rowOf b1) (rowOf g1) (rowOf be1) (rowOf m1) (rowOf v1))
          w2 (rowOf b2) (rowOf g2) (rowOf be2) (rowOf m2) (rowOf v2)) w3 (rowOf b3) f0 := by
  unfold k0_pay1 k0_pay2 k0_pay3
  dsimp only
  rw [dev_hidden dot_S2048x416_S416x256_S2048x256_1_0_0_1_n_n rfl rfl rfl rfl rfl rfl,
    dev_hidden dot_S2048x256_S256x128_S2048x128_1_0_0_1_n_n rfl rfl rfl rfl rfl rfl,
    dev_out dot_S2048x128_S128x1_S2048x1_1_0_0_1_n_n rfl rfl rfl rfl rfl rfl,
    Idealize.ShloMosaic.shapeCast_self]

/-! ## The windows over the grid -/

/-- The printed index maps, decided over the eight points: the embeddings block, the added column's block and the
    result's block all sit at block row t (at most 7) and block column 0. -/
theorem moving_idx : ∀ t : Fin cfg0.N,
    win0_0.index t (0 : Fin 2) = win0_16.index t (0 : Fin 2) ∧ win0_0.index t (1 : Fin 2) = 0
    ∧ win0_1.index t (0 : Fin 2) = win0_16.index t (0 : Fin 2) ∧ win0_1.index t (1 : Fin 2) = 0
    ∧ win0_16.index t (1 : Fin 2) = 0 ∧ win0_16.index t (0 : Fin 2) ≤ 7 :=
  (by decide +kernel : ∀ t : Fin grid0.N, _)

/-- Every weight and parameter window sits at block (0, 0) at every point: its block is its whole array. -/
theorem resident_idx : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-- Every block row is some point's. -/
theorem row_onto : ∀ q : Fin 8, ∃ t : Fin cfg0.N, win0_16.index t = ![q.val, 0] :=
  (by decide +kernel : ∀ q : Fin 8, ∃ t : Fin grid0.N, win0_16.index t = ![q.val, 0])

/-! ## A resident window's block is its whole array -/

set_option hygiene false in
/-- Closes "window w's block at point t is the whole array arr": on either axis the block index is 0, so the block's
    entry y sits in the array at 0 · size + y. -/
local macro "resident_block" w:term "," arr:term "," n:num "," s0:num "," s1:num "," h:ident : tactic => `(tactic| (
  funext y
  show V m c $arr (((cfg0.win $n).blk t).view.emb y) = V m c $arr y
  refine congrArg _ (funext fun a => Fin.ext ?_)
  obtain ⟨h2, h3, h4, h5, h6, h7, h8, h9, h10, h11, h12, h13, h14, h15⟩ := resident_idx t
  obtain ⟨e0, e1⟩ := $h
  match a with
  | ⟨0, _⟩ => (show ($w).index t (0 : Fin 2) * $s0 + 1 * (y 0).val = (y 0).val; omega)
  | ⟨1, _⟩ => (show ($w).index t (1 : Fin 2) * $s1 + 1 * (y 1).val = (y 1).val; omega)))

theorem blk2 (c : Dev nD) (t : Fin cfg0.N) : iblk m c 2 t = V m c main_arg3 := by
  resident_block win0_2, main_arg3, 2, 416, 256, h2
theorem blk3 (c : Dev nD) (t : Fin cfg0.N) : iblk m c 3 t = V m c main_v46 := by
  resident_block win0_3, main_v46, 3, 1, 256, h3
theorem blk4 (c : Dev nD) (t : Fin cfg0.N) : iblk m c 4 t = V m c main_v47 := by
  resident_block win0_4, main_v47, 4, 1, 256, h4
theorem blk5 (c : Dev nD) (t : Fin cfg0.N) : iblk m c 5 t = V m c main_v48 := by
  resident_block win0_5, main_v48, 5, 1, 256, h5
theorem blk6 (c : Dev nD) (t : Fin cfg0.N) : iblk m c 6 t = V m c main_v49 := by
  resident_block win0_6, main_v49, 6, 1, 256, h6
theorem blk7 (c : Dev nD) (t : Fin cfg0.N) : iblk m c 7 t = V m c main_v50 := by
  resident_block win0_7, main_v50, 7, 1, 256, h7
theorem blk8 (c : Dev nD) (t : Fin cfg0.N) : iblk m c 8 t = V m c main_arg9 := by
  resident_block win0_8, main_arg9, 8, 256, 128, h8
theorem blk9 (c : Dev nD) (t : Fin cfg0.N) : iblk m c 9 t = V m c main_v51 := by
  resident_block win0_9, main_v51, 9, 1, 128, h9
theorem blk10 (c : Dev nD) (t : Fin cfg0.N) : iblk m c 10 t = V m c main_v52 := by
  resident_block win0_10, main_v52, 10, 1, 128, h10
theorem blk11 (c : Dev nD) (t : Fin cfg0.N) : iblk m c 11 t = V m c main_v53 := by
  resident_block win0_11, main_v53, 11, 1, 128, h11
theorem blk12 (c : Dev nD) (t : Fin cfg0.N) : iblk m c 12 t = V m c main_v54 := by
  resident_block win0_12, main_v54, 12, 1, 128, h12
theorem blk13 (c : Dev nD) (t : Fin cfg0.N) : iblk m c 13 t = V m c main_v55 := by
  resident_block win0_13, main_v55, 13, 1, 128, h13
theorem blk14 (c : Dev nD) (t : Fin cfg0.N) : iblk m c 14 t = V m c main_arg15 := by
  resident_block win0_14, main_arg15, 14, 128, 1, h14
theorem blk15 (c : Dev nD) (t : Fin cfg0.N) : iblk m c 15 t = V m c main_v56 := by
  resident_block win0_15, main_v56, 15, 1, 1, h15

/-! ## The two moving windows' blocks, read where the result's block sits -/

/-- Row p of point t's embeddings block is the array's row at which the result's block puts its row p. -/
theorem blk0_row (c : Dev nD) (t : Fin cfg0.N) (p : Fin 2048) (u : Fin 1) (k : Fin 416) :
    iblk m c 0 t (ix2 p k)
      = V m c main_v45 (ix2 ((((cfg0.win 16).blk t).view.emb (ix2 p u) : S16384x1.Idx) 0) k) := by
  show V m c main_v45 (((cfg0.win 0).blk t).view.emb (ix2 p k)) = _
  refine congrArg _ (funext fun a => Fin.ext ?_)
  obtain ⟨e0, e1, e2, e3, e4, e5⟩ := moving_idx t
  match a with
  | ⟨0, _⟩ =>
    show win0_0.index t (0 : Fin 2) * 2048 + 1 * p.val = win0_16.index t (0 : Fin 2) * 2048 + 1 * p.val
    omega
  | ⟨1, _⟩ =>
    show win0_0.index t (1 : Fin 2) * 416 + 1 * k.val = k.val
    omega

/-- Entry p of point t's block of the added column is the array's entry at which the result's block puts its row p. -/
theorem blk1_row (c : Dev nD) (t : Fin cfg0.N) (p : Fin 2048) (u : Fin 1) :
    iblk m c 1 t (ix2 p (0 : Fin 1))
      = V m c main_v44 (ix2 ((((cfg0.win 16).blk t).view.emb (ix2 p u) : S16384x1.Idx) 0) (0 : Fin 1)) := by
  show V m c main_v44 (((cfg0.win 1).blk t).view.emb (ix2 p (0 : Fin 1))) = _
  refine congrArg _ (funext fun a => Fin.ext ?_)
  obtain ⟨e0, e1, e2, e3, e4, e5⟩ := moving_idx t
  match a with
  | ⟨0, _⟩ =>
    show win0_1.index t (0 : Fin 2) * 2048 + 1 * p.val = win0_16.index t (0 : Fin 2) * 2048 + 1 * p.val
    omega
  | ⟨1, _⟩ =>
    show win0_1.index t (1 : Fin 2) * 1 + 1 * 0 = 0
    omega

/-! ## The result array -/

/-- The tower applied to the arrays the launch finds: the flattened embeddings, the three weights, the per-column
    parameters read off their [1, N] rows, and the added column. -/
def tower (c : Dev nD) : FVec Ideal S16384x1 .f32 :=
  out (hidden (hidden (V m c main_v45) (V m c main_arg3) (rowOf (V m c main_v46)) (rowOf (V m c main_v47))
        (rowOf (V m c main_v48)) (rowOf (V m c main_v49)) (rowOf (V m c main_v50)))
      (V m c main_arg9) (rowOf (V m c main_v51)) (rowOf (V m c main_v52)) (rowOf (V m c main_v53))
        (rowOf (V m c main_v54)) (rowOf (V m c main_v55)))
    (V m c main_arg15) (rowOf (V m c main_v56)) (V m c main_v44)

/-- Point t's block of the flattened embeddings, and of the added column. -/
abbrev xblk (c : Dev nD) (t : Fin cfg0.N) : FVec Ideal S2048x416 .f32 := iblk m c 0 t
abbrev fblk (c : Dev nD) (t : Fin cfg0.N) : FVec Ideal S2048x1 .f32 := iblk m c 1 t

/-- The tower of point t's blocks: what the body stores at point t. -/
def blockTower (c : Dev nD) (t : Fin cfg0.N) : FVec Ideal S2048x1 .f32 :=
  out (hidden (hidden (xblk m c t) (V m c main_arg3) (rowOf (V m c main_v46)) (rowOf (V m c main_v47))
        (rowOf (V m c main_v48)) (rowOf (V m c main_v49)) (rowOf (V m c main_v50)))
      (V m c main_arg9) (rowOf (V m c main_v51)) (rowOf (V m c main_v52)) (rowOf (V m c main_v53))
        (rowOf (V m c main_v54)) (rowOf (V m c main_v55)))
    (V m c main_arg15) (rowOf (V m c main_v56)) (fblk m c t)

set_option maxHeartbeats 2000000 in
/-- The buffer the body leaves at point t holds the tower of the point's blocks, the resident windows' blocks being
    their whole arrays. -/
theorem stored_block (c : Dev nD) (t : Fin cfg0.N) :
    out0_16 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) = blockTower m c t := by
  unfold out0_16
  rw [View.canon_unit_zero origin]
  simp only [View.ld_unit_zero (S := S2048x416) origin, View.ld_unit_zero (S := S416x256) origin,
    View.ld_unit_zero (S := S1x256) origin, View.ld_unit_zero (S := S256x128) origin,
    View.ld_unit_zero (S := S1x128) origin, View.ld_unit_zero (S := S128x1) origin,
    View.ld_unit_zero (S := S1x1) origin, View.ld_unit_zero (S := S2048x1) origin]
  rw [stored_eq, blk2 m c t, blk3 m c t, blk4 m c t, blk5 m c t, blk6 m c t, blk7 m c t, blk8 m c t, blk9 m c t,
    blk10 m c t, blk11 m c t, blk12 m c t, blk13 m c t, blk14 m c t, blk15 m c t]
  rfl

set_option maxHeartbeats 2000000 in
/-- Entry (p, u) of the tower of point t's blocks is the whole-array tower where the result's block puts (p, u): the
    tower is row-local, and row p of either moving block is the array's row at that place. -/
theorem blockTower_apply (c : Dev nD) (t : Fin cfg0.N) (p : Fin 2048) (u : Fin 1) :
    blockTower m c t (ix2 p u) = tower m c (((cfg0.win 16).blk t).view.emb (ix2 p u)) := by
  rw [eq_ix2 ((((cfg0.win 16).blk t).view.emb (ix2 p u) : S16384x1.Idx))]
  exact tower_row_congr (M := 2048) (M' := 16384) (K := 416) (K₁ := 256) (K₂ := 128) (xblk m c t) (V m c main_v45)
    (V m c main_arg3) (rowOf (V m c main_v46)) (rowOf (V m c main_v47)) (rowOf (V m c main_v48)) (rowOf (V m c main_v49))
    (rowOf (V m c main_v50)) (V m c main_arg9) (rowOf (V m c main_v51)) (rowOf (V m c main_v52)) (rowOf (V m c main_v53))
    (rowOf (V m c main_v54)) (rowOf (V m c main_v55)) (V m c main_arg15) (rowOf (V m c main_v56)) (fblk m c t)
    (V m c main_v44) p _ (fun k => blk0_row m c t p u k) (blk1_row m c t p u) u _

set_option maxHeartbeats 2000000 in
/-- What point t writes back is block t of the tower. -/
theorem flushed_eq (c : Dev nD) (t : Fin cfg0.N) :
    (dats m 0 c).flushed 16 t = ((cfg0.win 16).blk t).view.read (Elt Ideal) (tower m c) := by
  rw [Value.flushed16, stored_block]
  funext j
  obtain ⟨p, u, rfl⟩ : ∃ (p : Fin 2048) (u : Fin 1), j = ix2 p u := ⟨j 0, j 1, eq_ix2 j⟩
  exact blockTower_apply m c t p u

/-- An index of the result array is in point t's block iff each coordinate is in the block's range on its axis. -/
theorem mem_blk (t : Fin cfg0.N) (i : S16384x1.Idx) :
    i ∈ ((cfg0.win 16).blk t).view.set ↔ ∀ a : Fin 2, win0_16.index t a * S2048x1.size a ≤ (i a).val
      ∧ (i a).val < win0_16.index t a * S2048x1.size a + S2048x1.size a := by
  show i ∈ ((View.whole main_v57).slice (win0_16.rect t)).set ↔ _
  rw [View.set_slice_whole, Rect.mem_set_unit]
  exact Iff.rfl

/-- Row r of the result array is in the block of the point at block row r / 2048. -/
theorem cover (i : S16384x1.Idx) :
    ∃ t : Fin cfg0.N, (cfg0.win 16).flush t = true ∧ i ∈ ((cfg0.win 16).blk t).view.set := by
  have hi0 : (i 0).val < 16384 := (i 0).isLt
  have hi1 : (i 1).val < 1 := (i 1).isLt
  obtain ⟨t, ht⟩ := row_onto ⟨(i 0).val / 2048, by omega⟩
  have q0 : win0_16.index t (0 : Fin 2) = (i 0).val / 2048 := congrFun ht 0
  have q1 : win0_16.index t (1 : Fin 2) = 0 := congrFun ht 1
  refine ⟨t, flush0_16 t, ?_⟩
  rw [mem_blk]
  intro a
  match a with
  | ⟨0, _⟩ =>
    show win0_16.index t (0 : Fin 2) * 2048 ≤ (i 0).val ∧ (i 0).val < win0_16.index t (0 : Fin 2) * 2048 + 2048
    omega
  | ⟨1, _⟩ =>
    show win0_16.index t (1 : Fin 2) * 1 ≤ (i 1).val ∧ (i 1).val < win0_16.index t (1 : Fin 2) * 1 + 1
    omega

/-- The result array after the run is the tower of the arrays the launch found. -/
theorem final (c : Dev nD) : (dats m 0 c).arrAt 16 cfg0.N = tower m c :=
  (dats m 0 c).arrAt_eq_of_cover 16 (tower m c) (fun t _ => flushed_eq m c t) cover

end Cert.KernelIdeal.Tower

end
-- ==== Proof.KernelHost.lean ====
/-
  The arrays the kernel's launch finds, in terms of the program's arguments.

  Before its one launch the kernel's program gathers the embedding rows, sums them into the first-order column and
  the second-order column, adds the two, flattens the gathered rows to 16384 × 416, and recasts each per-column
  parameter vector as a [1, N] row. The gather, the two columns and the flattening are, operation for operation, the
  ones the reference begins with; so the launch finds the reference's own flattened embeddings, the sum of the
  reference's two columns, the weights as given, and rows that read back as the parameter vectors. Hence the kernel's
  result, the tower of those arrays, is the tower the reference computes.
-/
import proofs.«116948_j43757126812202_1_alg».proof.Proof.KernelValue
import proofs.«116948_j43757126812202_1_alg».proof.Proof.Gen.ReferenceIdeal.Read
import Idealize.ShloMosaic.Lib.StableHlo.Run

noncomputable section

namespace Cert.KernelIdeal.Tower

open Cert.KernelIdeal Cert.KernelIdeal.Gen Idealize.ShloMosaic Idealize.ShloMosaic.TcCoe Idealize.SL.Sem
open Idealize.ShloMosaic.StableHlo
open Cert.Net

variable (m : (ℓ : Loc nD τ sig) → Buf (Elt Ideal) ℓ)

/-! ## What the host operations before the launch leave -/

set_option maxRecDepth 8192 in
set_option maxHeartbeats 40000000 in
/-- The flattened embeddings are the reference's. -/
theorem V_v45 (c : Dev nD) : (V m c main_v45 : S16384x416.Idx → Ideal .f32)
    = Cert.ReferenceIdeal.Read.val_main_v44 (F := Ideal) (m ((c : Thread nD τ).loc main_arg0))
        (m ((c : Thread nD τ).loc main_arg2)) := by
  dsimp only [V, hostOps0]; after_results_simp <;> rfl

set_option maxRecDepth 8192 in
set_option maxHeartbeats 40000000 in
/-- The added column is the sum of the reference's first-order and second-order columns. -/
theorem V_v44 (c : Dev nD) : @Eq (FVec Ideal S16384x1 .f32) (V m c main_v44)
    (addf (Cert.ReferenceIdeal.Read.val_main_v34 (F := Ideal) (m ((c : Thread nD τ).loc main_arg0))
          (m ((c : Thread nD τ).loc main_arg1)))
        (Cert.ReferenceIdeal.Read.val_main_v43 (F := Ideal) (m ((c : Thread nD τ).loc main_arg0))
          (m ((c : Thread nD τ).loc main_arg2)))) := by
  dsimp only [V, hostOps0]; after_results_simp <;> rfl

/-! Each per-column parameter row is its vector recast. -/

set_option maxRecDepth 8192 in
set_option maxHeartbeats 40000000 in
theorem V_v46 (c : Dev nD) : (V m c main_v46 : S1x256.Idx → Ideal .f32)
    = shapeCast S1x256 (m ((c : Thread nD τ).loc main_arg4)) shapeCasts_S256_S1x256 := by
  dsimp only [V, hostOps0]; after_results_simp <;> rfl

set_option maxRecDepth 8192 in
set_option maxHeartbeats 40000000 in
theorem V_v47 (c : Dev nD) : (V m c main_v47 : S1x256.Idx → Ideal .f32)
    = shapeCast S1x256 (m ((c : Thread nD τ).loc main_arg5)) shapeCasts_S256_S1x256 := by
  dsimp only [V, hostOps0]; after_results_simp <;> rfl

set_option maxRecDepth 8192 in
set_option maxHeartbeats 40000000 in
theorem V_v48 (c : Dev nD) : (V m c main_v48 : S1x256.Idx → Ideal .f32)
    = shapeCast S1x256 (m ((c : Thread nD τ).loc main_arg6)) shapeCasts_S256_S1x256 := by
  dsimp only [V, hostOps0]; after_results_simp <;> rfl

set_option maxRecDepth 8192 in
set_option maxHeartbeats 40000000 in
theorem V_v49 (c : Dev nD) : (V m c main_v49 : S1x256.Idx → Ideal .f32)
    = shapeCast S1x256 (m ((c : Thread nD τ).loc main_arg7)) shapeCasts_S256_S1x256 := by
  dsimp only [V, hostOps0]; after_results_simp <;> rfl

set_option maxRecDepth 8192 in
set_option maxHeartbeats 40000000 in
theorem V_v50 (c : Dev nD) : (V m c main_v50 : S1x256.Idx → Ideal .f32)
    = shapeCast S1x256 (m ((c : Thread nD τ).loc main_arg8)) shapeCasts_S256_S1x256 := by
  dsimp only [V, hostOps0]; after_results_simp <;> rfl

set_option maxRecDepth 8192 in
set_option maxHeartbeats 40000000 in
theorem V_v51 (c : Dev nD) : (V m c main_v51 : S1x128.Idx → Ideal .f32)
    = shapeCast S1x128 (m ((c : Thread nD τ).loc main_arg10)) shapeCasts_S128_S1x128 := by
  dsimp only [V, hostOps0]; after_results_simp <;> rfl

set_option maxRecDepth 8192 in
set_option maxHeartbeats 40000000 in
theorem V_v52 (c : Dev nD) : (V m c main_v52 : S1x128.Idx → Ideal .f32)
    = shapeCast S1x128 (m ((c : Thread nD τ).loc main_arg11)) shapeCasts_S128_S1x128 := by
  dsimp only [V, hostOps0]; after_results_simp <;> rfl

set_option maxRecDepth 8192 in
set_option maxHeartbeats 40000000 in
theorem V_v53 (c : Dev nD) : (V m c main_v53 : S1x128.Idx → Ideal .f32)
    = shapeCast S1x128 (m ((c : Thread nD τ).loc main_arg12)) shapeCasts_S128_S1x128 := by
  dsimp only [V, hostOps0]; after_results_simp <;> rfl

set_option maxRecDepth 8192 in
set_option maxHeartbeats 40000000 in
theorem V_v54 (c : Dev nD) : (V m c main_v54 : S1x128.Idx → Ideal .f32)
    = shapeCast S1x128 (m ((c : Thread nD τ).loc main_arg13)) shapeCasts_S128_S1x128 := by
  dsimp only [V, hostOps0]; after_results_simp <;> rfl

set_option maxRecDepth 8192 in
set_option maxHeartbeats 40000000 in
theorem V_v55 (c : Dev nD) : (V m c main_v55 : S1x128.Idx → Ideal .f32)
    = shapeCast S1x128 (m ((c : Thread nD τ).loc main_arg14)) shapeCasts_S128_S1x128 := by
  dsimp only [V, hostOps0]; after_results_simp <;> rfl

set_option maxRecDepth 8192 in
set_option maxHeartbeats 40000000 in
theorem V_v56 (c : Dev nD) : (V m c main_v56 : S1x1.Idx → Ideal .f32)
    = shapeCast S1x1 (m ((c : Thread nD τ).loc main_arg16)) shapeCasts_S1_S1x1 := by
  dsimp only [V, hostOps0]; after_results_simp <;> rfl

/-! Read back as vectors, the rows are the parameter vectors themselves. -/

theorem row_v46 (c : Dev nD) : rowOf (N := 256) (V m c main_v46) = m ((c : Thread nD τ).loc main_arg4) := by
  rw [V_v46 m c]; exact rowOf_shapeCast _ _

theorem row_v47 (c : Dev nD) : rowOf (N := 256) (V m c main_v47) = m ((c : Thread nD τ).loc main_arg5) := by
  rw [V_v47 m c]; exact rowOf_shapeCast _ _

theorem row_v48 (c : Dev nD) : rowOf (N := 256) (V m c main_v48) = m ((c : Thread nD τ).loc main_arg6) := by
  rw [V_v48 m c]; exact rowOf_shapeCast _ _

theorem row_v49 (c : Dev nD) : rowOf (N := 256) (V m c main_v49) = m ((c : Thread nD τ).loc main_arg7) := by
  rw [V_v49 m c]; exact rowOf_shapeCast _ _

theorem row_v50 (c : Dev nD) : rowOf (N := 256) (V m c main_v50) = m ((c : Thread nD τ).loc main_arg8) := by
  rw [V_v50 m c]; exact rowOf_shapeCast _ _

theorem row_v51 (c : Dev nD) : rowOf (N := 128) (V m c main_v51) = m ((c : Thread nD τ).loc main_arg10) := by
  rw [V_v51 m c]; exact rowOf_shapeCast _ _

theorem row_v52 (c : Dev nD) : rowOf (N := 128) (V m c main_v52) = m ((c : Thread nD τ).loc main_arg11) := by
  rw [V_v52 m c]; exact rowOf_shapeCast _ _

theorem row_v53 (c : Dev nD) : rowOf (N := 128) (V m c main_v53) = m ((c : Thread nD τ).loc main_arg12) := by
  rw [V_v53 m c]; exact rowOf_shapeCast _ _

theorem row_v54 (c : Dev nD) : rowOf (N := 128) (V m c main_v54) = m ((c : Thread nD τ).loc main_arg13) := by
  rw [V_v54 m c]; exact rowOf_shapeCast _ _

theorem row_v55 (c : Dev nD) : rowOf (N := 128) (V m c main_v55) = m ((c : Thread nD τ).loc main_arg14) := by
  rw [V_v55 m c]; exact rowOf_shapeCast _ _

theorem row_v56 (c : Dev nD) : rowOf (N := 1) (V m c main_v56) = m ((c : Thread nD τ).loc main_arg16) := by
  rw [V_v56 m c]; exact rowOf_shapeCast _ _

/-! ## The kernel's result in terms of the arguments -/

/-- The tower of the arrays the launch finds is the tower of the reference's flattened embeddings, the arguments'
    weights and parameter vectors, and the sum of the reference's two columns. -/
theorem tower_eq (c : Dev nD) : tower m c
    = out (hidden (hidden
          (Cert.ReferenceIdeal.Read.val_main_v44 (F := Ideal) (m ((c : Thread nD τ).loc main_arg0))
            (m ((c : Thread nD τ).loc main_arg2)))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)))
        (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14)))
      (m ((c : Thread nD τ).loc main_arg15)) (m ((c : Thread nD τ).loc main_arg16))
      (addf (Cert.ReferenceIdeal.Read.val_main_v34 (F := Ideal) (m ((c : Thread nD τ).loc main_arg0))
          (m ((c : Thread nD τ).loc main_arg1)))
        (Cert.ReferenceIdeal.Read.val_main_v43 (F := Ideal) (m ((c : Thread nD τ).loc main_arg0))
          (m ((c : Thread nD τ).loc main_arg2)))) := by
  unfold tower
  rw [V_v45 m c, V_v44 m c, V_main_arg3 m c, V_main_arg9 m c, V_main_arg15 m c, row_v46 m c, row_v47 m c, row_v48 m c,
    row_v49 m c, row_v50 m c, row_v51 m c, row_v52 m c, row_v53 m c, row_v54 m c, row_v55 m c, row_v56 m c]

end Cert.KernelIdeal.Tower

end
-- ==== Proof.ReferenceValue.lean ====
/-
  What the reference computes, as the same tower of whole arrays.

  After gathering the embeddings the reference flattens them to a 16384 × 416 array, runs it through two hidden
  layers (product with the weight, bias, normalisation by the running mean and variance, scale, shift, relu) and the
  output layer, adds the first-order column and then the second-order column to the logit, and applies
  1 / (1 + exp (−z)). Layer by layer that is the tower of Net.lean, the two columns entering as their sum.
-/
import proofs.«116948_j43757126812202_1_alg».proof.Proof.Gen.ReferenceIdeal.Read
import proofs.«116948_j43757126812202_1_alg».proof.Proof.Net

noncomputable section

namespace Cert.ReferenceIdeal.Tower

open Cert.ReferenceIdeal Cert.ReferenceIdeal.Gen Cert.ReferenceIdeal.Read Idealize.ShloMosaic Idealize.ShloMosaic.TcCoe
open Idealize.ShloMosaic.ValueIdx
open Cert.Net

/-- The first hidden layer of the flattened embeddings. -/
theorem layer1 (x0 : (⟨S16384x26, .i32⟩ : BufTy).Contents (Elt Ideal)) (x2 : (⟨S26x100000x16, .f32⟩ : BufTy).Contents (Elt Ideal))
    (x3 : (⟨S416x256, .f32⟩ : BufTy).Contents (Elt Ideal)) (x4 x5 x6 x7 x8 : (⟨S256, .f32⟩ : BufTy).Contents (Elt Ideal)) :
    val_main_v64 (F := Ideal) x0 x2 x3 x4 x5 x6 x7 x8 = hidden (val_main_v44 (F := Ideal) x0 x2) x3 x4 x5 x6 x7 x8 :=
  host_hidden dot_S16384x416_S416x256_S16384x256_1_0_0_1_n_n rfl rfl rfl rfl rfl rfl none
    (val_main_v44 (F := Ideal) x0 x2) x3 x4 x7 x8 x5 x6 _ _ _ _

/-- The second hidden layer of the first. -/
theorem layer2 (x0 : (⟨S16384x26, .i32⟩ : BufTy).Contents (Elt Ideal)) (x2 : (⟨S26x100000x16, .f32⟩ : BufTy).Contents (Elt Ideal))
    (x3 : (⟨S416x256, .f32⟩ : BufTy).Contents (Elt Ideal)) (x4 x5 x6 x7 x8 : (⟨S256, .f32⟩ : BufTy).Contents (Elt Ideal))
    (x9 : (⟨S256x128, .f32⟩ : BufTy).Contents (Elt Ideal)) (x10 x11 x12 x13 x14 : (⟨S128, .f32⟩ : BufTy).Contents (Elt Ideal)) :
    val_main_v84 (F := Ideal) x0 x2 x3 x4 x5 x6 x7 x8 x9 x10 x11 x12 x13 x14
      = hidden (val_main_v64 (F := Ideal) x0 x2 x3 x4 x5 x6 x7 x8) x9 x10 x11 x12 x13 x14 :=
  host_hidden dot_S16384x256_S256x128_S16384x128_1_0_0_1_n_n rfl rfl rfl rfl rfl rfl none
    (val_main_v64 (F := Ideal) x0 x2 x3 x4 x5 x6 x7 x8) x9 x10 x13 x14 x11 x12 _ _ _ _

/-- The output layer of the second, the first-order and second-order columns added to the logit. -/
theorem layer3 (x0 : (⟨S16384x26, .i32⟩ : BufTy).Contents (Elt Ideal)) (x1 : (⟨S26x100000x1, .f32⟩ : BufTy).Contents (Elt Ideal))
    (x2 : (⟨S26x100000x16, .f32⟩ : BufTy).Contents (Elt Ideal))
    (x3 : (⟨S416x256, .f32⟩ : BufTy).Contents (Elt Ideal)) (x4 x5 x6 x7 x8 : (⟨S256, .f32⟩ : BufTy).Contents (Elt Ideal))
    (x9 : (⟨S256x128, .f32⟩ : BufTy).Contents (Elt Ideal)) (x10 x11 x12 x13 x14 : (⟨S128, .f32⟩ : BufTy).Contents (Elt Ideal))
    (x15 : (⟨S128x1, .f32⟩ : BufTy).Contents (Elt Ideal)) (x16 : (⟨S1, .f32⟩ : BufTy).Contents (Elt Ideal)) :
    val_main_v96 (F := Ideal) x0 x1 x2 x3 x4 x5 x6 x7 x8 x9 x10 x11 x12 x13 x14 x15 x16
      = out (val_main_v84 (F := Ideal) x0 x2 x3 x4 x5 x6 x7 x8 x9 x10 x11 x12 x13 x14) x15 x16
          (addf (val_main_v34 (F := Ideal) x0 x1) (val_main_v43 (F := Ideal) x0 x2)) :=
  host_out dot_S16384x128_S128x1_S16384x1_1_0_0_1_n_n rfl rfl rfl rfl rfl rfl none
    (val_main_v84 (F := Ideal) x0 x2 x3 x4 x5 x6 x7 x8 x9 x10 x11 x12 x13 x14) x15 x16
    (val_main_v34 (F := Ideal) x0 x1) (val_main_v43 (F := Ideal) x0 x2) _ _ _ _

/-- The reference's result: the tower of the flattened embeddings, the two columns entering as their sum. -/
theorem result_eq (x0 : (⟨S16384x26, .i32⟩ : BufTy).Contents (Elt Ideal)) (x1 : (⟨S26x100000x1, .f32⟩ : BufTy).Contents (Elt Ideal))
    (x2 : (⟨S26x100000x16, .f32⟩ : BufTy).Contents (Elt Ideal))
    (x3 : (⟨S416x256, .f32⟩ : BufTy).Contents (Elt Ideal)) (x4 x5 x6 x7 x8 : (⟨S256, .f32⟩ : BufTy).Contents (Elt Ideal))
    (x9 : (⟨S256x128, .f32⟩ : BufTy).Contents (Elt Ideal)) (x10 x11 x12 x13 x14 : (⟨S128, .f32⟩ : BufTy).Contents (Elt Ideal))
    (x15 : (⟨S128x1, .f32⟩ : BufTy).Contents (Elt Ideal)) (x16 : (⟨S1, .f32⟩ : BufTy).Contents (Elt Ideal)) :
    val_main_v96 (F := Ideal) x0 x1 x2 x3 x4 x5 x6 x7 x8 x9 x10 x11 x12 x13 x14 x15 x16
      = out (hidden (hidden (val_main_v44 (F := Ideal) x0 x2) x3 x4 x5 x6 x7 x8) x9 x10 x11 x12 x13 x14) x15 x16
          (addf (val_main_v34 (F := Ideal) x0 x1) (val_main_v43 (F := Ideal) x0 x2)) := by
  rw [layer3, layer2, layer1]

end Cert.ReferenceIdeal.Tower

end
-- ==== Proof.lean ====
/-
  A click-through-rate model's forward pass: embedding rows gathered by 26 categorical features, a factorisation
  machine's first-order and second-order terms, and a tower of two hidden layers (product with a weight, bias,
  normalisation by running statistics, relu) and an output layer, whose logit the two terms are added to before the
  logistic.

  The kernel computes the gather and the two terms on the host, adds them into one column, and runs the tower in one
  launch over eight blocks of 2048 rows, its products taken on operands narrowed to bf16; the reference runs everything
  on the host and adds the two terms to the logit one after the other. Over the extended reals a change of float
  format is the identity, a block product into the zero accumulator and the host's dot_general are the same sums, the
  tower is row-local, so the blocks assemble to the whole-array tower; the device's logistic is 1 / (1 + exp (−z));
  and (z + f₁) + f₂ = z + (f₁ + f₂) always. The precondition (finite inputs) is not used.

  Frames: the kernels' are the generated frame certificates; the reference's is its generated run with the result
  dropped. The idealization rewrote nothing, so there is nothing to preserve.
-/
import proofs.«116948_j43757126812202_1_alg».proof.Defs
import proofs.«116948_j43757126812202_1_alg».proof.Proof.Gen.Kernel
import proofs.«116948_j43757126812202_1_alg».proof.Proof.Gen.Kernel.Skeleton
import proofs.«116948_j43757126812202_1_alg».proof.Proof.Gen.Kernel.Launch
import proofs.«116948_j43757126812202_1_alg».proof.Proof.Gen.Kernel.Points
import proofs.«116948_j43757126812202_1_alg».proof.Proof.Gen.Kernel.Frame
import proofs.«116948_j43757126812202_1_alg».proof.Proof.Gen.KernelIdeal
import proofs.«116948_j43757126812202_1_alg».proof.Proof.Gen.KernelIdeal.Skeleton
import proofs.«116948_j43757126812202_1_alg».proof.Proof.Gen.KernelIdeal.Launch
import proofs.«116948_j43757126812202_1_alg».proof.Proof.Gen.KernelIdeal.Points
import proofs.«116948_j43757126812202_1_alg».proof.Proof.Gen.KernelIdeal.Frame
import proofs.«116948_j43757126812202_1_alg».proof.Proof.Gen.ReferenceIdeal
import proofs.«116948_j43757126812202_1_alg».proof.Proof.Gen.Pre_finite_inputs
import proofs.«116948_j43757126812202_1_alg».proof.Proof.Gen.KernelIdeal.Value
import proofs.«116948_j43757126812202_1_alg».proof.Proof.Gen.ReferenceIdeal.Run
import proofs.«116948_j43757126812202_1_alg».proof.Proof.Gen.ReferenceIdeal.Read
import proofs.«116948_j43757126812202_1_alg».proof.Proof.KernelValue
import proofs.«116948_j43757126812202_1_alg».proof.Proof.KernelHost
import proofs.«116948_j43757126812202_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.Value.run (F := Ideal) m ρ)

/-- Both programs end with the tower of the reference's flattened embeddings, the arguments' weights and parameter
    vectors, and the sum of the first-order and second-order columns. -/
theorem algebraic : Cert.algebraic_KernelIdeal_ReferenceIdeal := by
  intro m ρ m' ρ' _ hagree
  refine ⟨fun c => Cert.KernelIdeal.Tower.tower m c, ?_, ?_⟩
  · exact (θ_run Cert.KernelIdeal.defs _ _).mono
      (fun r h c => ⟨(h c).1.trans (Cert.KernelIdeal.Tower.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v96_eq, Cert.ReferenceIdeal.Tower.result_eq,
      h0, h1, h2, h3, h4, h5, h6, h7, h8, h9, h10, h11, h12, h13, h14, h15, h16]
    exact (Cert.KernelIdeal.Tower.tower_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
